-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x100 : Shape := ⟨2, ![262144, 100]⟩
abbrev S262144 : Shape := ⟨1, ![262144]⟩
abbrev S_ : Shape := ⟨0, ![]⟩

class Facts : Prop where
  bcast_S_S262144x100 : S_.BroadcastsInDim S262144x100 (![] : Fin 0 → Fin S262144x100.rank)
  reducesTo_S262144x100_S_d0_1 : S262144x100.ReducesTo [0, 1] S_
  h_S_ : 0 < S_.numel

variable [Facts]

def fn {F : FTy → Type} [FloatOps F] (main_arg0 : FVec F S262144x100 .f32) (main_arg1 : IVec S262144 32) : IVec S_ 1 :=
  let main_v0 : FVec F S262144x100 .f32 := Host.absf main_arg0
  let main_cst : FVec F S_ .f32 := constant S_ .f32 0x7F800000#32
  let main_v1 : FVec F S262144x100 .f32 := broadcastInDim S262144x100 ![] bcast_S_S262144x100 main_cst
  let main_v2 : IVec S262144x100 1 := cmpf .olt main_v0 main_v1
  let main_c : IVec S_ 1 := constantI S_ 1 1#1
  let main_v3 : IVec S_ 1 := (fun x v => Host.reduce IntOp.andi x v reducesTo_S262144x100_S_d0_1 h_S_) main_v2 main_c
  main_v3
-- ==== Kernel.lean ====
abbrev S262144x100 : Shape := ⟨2, ![262144, 100]⟩
abbrev S262144 : Shape := ⟨1, ![262144]⟩
abbrev S262144x1 : Shape := ⟨2, ![262144, 1]⟩
abbrev S1x1 : Shape := ⟨2, ![1, 1]⟩
abbrev S2048x100 : Shape := ⟨2, ![2048, 100]⟩
abbrev S2048x1 : Shape := ⟨2, ![2048, 1]⟩
abbrev S2048 : Shape := ⟨1, ![2048]⟩
abbrev S1 : Shape := ⟨1, ![1]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S262144x100, .f32⟩
  | .hbm, ⟨1, _⟩ => ⟨S262144, .i32⟩
  | .hbm, ⟨2, _⟩ => ⟨S262144x1, .i32⟩
  | .hbm, ⟨3, _⟩ => ⟨S1x1, .f32⟩
  | .hbm, ⟨4, _⟩ => ⟨S_, .f32⟩
  | .local _ .vmem, ⟨0, _⟩ => ⟨S2048x100, .f32⟩
  | .local _ .vmem, ⟨1, _⟩ => ⟨S2048x100, .f32⟩
  | .local _ .vmem, ⟨2, _⟩ => ⟨S2048x1, .i32⟩
  | .local _ .vmem, ⟨3, _⟩ => ⟨S2048x1, .i32⟩
  | .local _ .vmem, ⟨4, _⟩ => ⟨S1x1, .f32⟩
  | _, _ => ⟨S262144x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_8 : BitVec 32 := 0#32
  let v23 : BitVec 1 := Scalar.cmpi .ne v22 c0_i32_8
  v23

def k0_cond2 (i : grid0.Coords) : BitVec 1 :=
  let arg0 : BitVec 32 := BitVec.ofNat 32 (i 0).val
  let c0_i32_9 : BitVec 32 := 0#32
  let v24 : BitVec 1 := Scalar.cmpi .sgt arg0 c0_i32_9
  let v25 : BitVec 32 := Scalar.extui v24
  let c0_i32_10 : BitVec 32 := 0#32
  let v26 : BitVec 1 := Scalar.cmpi .ne v25 c0_i32_10
  v26

def k0_cond3 (i : grid0.Coords) : BitVec 1 :=
  let arg0 : BitVec 32 := BitVec.ofNat 32 (i 0).val
  let c127_i32 : BitVec 32 := 127#32
  let v27 : BitVec 1 := Scalar.cmpi .eq arg0 c127_i32
  let v28 : BitVec 32 := Scalar.extui v27
  let c0_i32_11 : BitVec 32 := 0#32
  let v29 : BitVec 1 := Scalar.cmpi .ne v28 c0_i32_11
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S262144_S262144x1 : S262144.ShapeCasts S262144x1
  inb_S2048x100_S2048x100_0_0 : ∀ a, (![0, 0] : Fin 2 → Nat) a + S2048x100.size a ≤ S2048x100.size a
  h_S2048x100 : 0 < S2048x100.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x100_d1_w32 : S2048x100.Iotas .tc 32 [1]
  broadcasts_S2048x1_S2048x100 : S2048x1.Broadcasts S2048x100
  reduces_S2048x100_S2048 : S2048x100.Reduces [1] S2048
  shapeCasts_S2048_S2048x1 : S2048.ShapeCasts S2048x1
  reduces_S2048x1_S1 : S2048x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x100.size a ≤ S262144x100.size a
  hwx0_0 : ∀ i : grid0.Coords, EltTy.bits .f32 = 32 ∨ (Rect.block (s := S262144x100) S2048x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .i32 = 32 ∨ (Rect.block (s := S262144x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S2048x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S262144x100 : Shape := ⟨2, ![262144, 100]⟩
abbrev S262144 : Shape := ⟨1, ![262144]⟩
abbrev S262144x1 : Shape := ⟨2, ![262144, 1]⟩
abbrev S100 : Shape := ⟨1, ![100]⟩
abbrev S1x100 : Shape := ⟨2, ![1, 100]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S262144x100, .f32⟩
  | .hbm, ⟨1, _⟩ => ⟨S262144, .i32⟩
  | .hbm, ⟨2, _⟩ => ⟨S262144x1, .i32⟩
  | .hbm, ⟨3, _⟩ => ⟨S100, .i32⟩
  | .hbm, ⟨4, _⟩ => ⟨S1x100, .i32⟩
  | .hbm, ⟨5, _⟩ => ⟨S262144x100, .i32⟩
  | .hbm, ⟨6, _⟩ => ⟨S262144x100, .i32⟩
  | .hbm, ⟨7, _⟩ => ⟨S262144x100, .i1⟩
  | .hbm, ⟨8, _⟩ => ⟨S_, .f32⟩
  | .hbm, ⟨9, _⟩ => ⟨S262144x100, .f32⟩
  | .hbm, ⟨10, _⟩ => ⟨S262144x100, .f32⟩
  | .hbm, ⟨11, _⟩ => ⟨S_, .f32⟩
  | .hbm, ⟨12, _⟩ => ⟨S262144x100, .f32⟩
  | .hbm, ⟨13, _⟩ => ⟨S262144x100, .f32⟩
  | .hbm, ⟨14, _⟩ => ⟨S262144x100, .f32⟩
  | .hbm, ⟨15, _⟩ => ⟨S_, .f32⟩
  | .hbm, ⟨16, _⟩ => ⟨S262144x100, .f32⟩
  | .hbm, ⟨17, _⟩ => ⟨S262144x100, .f32⟩
  | .hbm, ⟨18, _⟩ => ⟨S262144x100, .f32⟩
  | .hbm, ⟨19, _⟩ => ⟨S_, .f32⟩
  | .hbm, ⟨20, _⟩ => ⟨S262144x100, .f32⟩
  | .hbm, ⟨21, _⟩ => ⟨S262144x100, .f32⟩
  | .hbm, ⟨22, _⟩ => ⟨S262144x100, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S262144x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S100_S1x100_1 : S100.BroadcastsInDim S1x100 (![1] : Fin 1 → Fin S1x100.rank)
  bcast_S262144x1_S262144x100_0_1 : S262144x1.BroadcastsInDim S262144x100 (![0, 1] : Fin 2 → Fin S262144x100.rank)
  bcast_S1x100_S262144x100_0_1 : S1x100.BroadcastsInDim S262144x100 (![0, 1] : Fin 2 → Fin S262144x100.rank)
  bcast_S_S262144x100 : S_.BroadcastsInDim S262144x100 (![] : Fin 0 → Fin S262144x100.rank)
  reducesTo_S262144x100_S_d0_1 : S262144x100.ReducesTo [0, 1] S_
  h_S_ : 0 < S_.numel

variable [Facts₀]

class Facts : Prop extends Facts₀ where

variable [Facts]
-- ==== Proof.BitsRuns.lean ====
/-
  The margin-loss kernel's body, run once in each of its three control cases (at any float instance `F`).

  The grid has 128 points; point `t` sees rows `2048 t … 2048 t + 2047` of the input and of the targets, and ONE
  1×1 output block whose index never moves, so its staging buffer is carried from point to point and written back
  after the last point only. The body first computes the tile's sum `s` (a function of the two input blocks alone),
  then, under three conditions on the grid coordinate `i`:

    `i = 0`   : stores `s`                       (the accumulator is started),
    `i > 0`   : loads the buffer, stores `buffer + s` (the accumulator grows),
    `i = 127` : loads the buffer, stores `buffer / 262144` (the mean).

  So a point is in one of three cases: FIRST (`i = 0`: only the first store), MIDDLE (`0 < i < 127`: only the
  second), LAST (`i = 127`: the second, then the third on what the second left). In each case the body's triple is
  stated on whole staging memrefs: the inputs' buffers at their contents `x0`, `x1` and handed back unchanged; the
  output's buffer at anything (FIRST) or at the running contents `xo` (MIDDLE, LAST), handed back with the case's
  stores written — the list of pieces is whatever the symbolic run leaves, read back as values in `BitsFrame`.
-/
import proofs.«141539_j22187801051754_1_alg».proof.Proof.Gen.Kernel.Frame
import proofs.«141539_j22187801051754_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, over the grid -/

/-- `i = 0`: the accumulator is started. -/
abbrev atFirst (i : grid0.Coords) : Prop := k0_cond1 i = 1#1
/-- `i > 0`: the accumulator grows. -/
abbrev pastFirst (i : grid0.Coords) : Prop := k0_cond2 i = 1#1
/-- `i = 127`: the mean is taken. -/
abbrev atLast (i : grid0.Coords) : Prop := k0_cond3 i = 1#1

theorem atFirst_iff : ∀ t : Fin cfg0.N, atFirst (grid0.coords t) ↔ t.val = 0 :=
  (by decide +kernel : ∀ t : Fin grid0.N, atFirst (grid0.coords t) ↔ t.val = 0)
theorem pastFirst_iff : ∀ t : Fin cfg0.N, pastFirst (grid0.coords t) ↔ 1 ≤ t.val :=
  (by decide +kernel : ∀ t : Fin grid0.N, pastFirst (grid0.coords t) ↔ 1 ≤ t.val)
theorem atLast_iff : ∀ t : Fin cfg0.N, atLast (grid0.coords t) ↔ t.val = 127 :=
  (by decide +kernel : ∀ t : Fin grid0.N, atLast (grid0.coords t) ↔ t.val = 127)

/-- At every coordinate one of the first two conditions holds (`i = 0` or `i > 0`), so the body stores into the
    output's buffer at every point: the printed idle table is `false` throughout. -/
theorem someStore : ∀ v : Fin 128,
    (!(Scalar.cmpi .ne (Scalar.extui (Scalar.cmpi .eq (BitVec.ofNat 32 v.val) 0#32)) 0#32 == 1#1)
      && !(Scalar.cmpi .ne (Scalar.extui (Scalar.cmpi .sgt (BitVec.ofNat 32 v.val) 0#32)) 0#32 == 1#1)
      && !(Scalar.cmpi .ne (Scalar.extui (Scalar.cmpi .eq (BitVec.ofNat 32 v.val) 127#32)) 0#32 == 1#1)) = false := by
  decide +kernel

theorem live0 : ∀ t : Fin cfg0.N, cfg0.idle 0 (grid0.coords t) = false := fun _ => rfl
theorem live1 : ∀ t : Fin cfg0.N, cfg0.idle 1 (grid0.coords t) = false := fun _ => rfl
theorem live2 : ∀ i : grid0.Coords, cfg0.idle 2 i = false := fun i => someStore (i 0)

/-! ## The staging memrefs the pipeline passes -/

abbrev ms0 (t : Fin cfg0.N) : Memref sig .tc .vmem S2048x100 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-- The output's one staging buffer, as a view: what a case leaves is stated by reading its pieces back through it. -/
abbrev VOut : View sig .tc .vmem S1x1 .f32 := (Memref.whole cc0_stg2_0 : Memref sig .tc .vmem S1x1 .f32).view

/-! ## The body's triple, case by case -/

set_option maxHeartbeats 1000000 in
/-- FIRST (`i = 0`): from the output's buffer at anything, the body leaves its first store's piece there. -/
noncomputable def runFirst (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : atFirst i) (hc1 : ¬pastFirst i) (hc2 : ¬atLast i)
    (x0 : Vec F S2048x100 .f32) (x1 : Vec F S2048x1 .i32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__margin_loss_kernel i arg1 harg1 arg2 harg2 arg3 harg3) K } := by
  refine ⟨?_, fun E K => ?run⟩
  case run =>
    simp only [cc0__margin_loss_kernel_eq_skeleton]; unfold cc0__margin_loss_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- MIDDLE (`0 < i < 127`): from the output's buffer at `xo`, the body leaves its second store's piece there. -/
noncomputable def runMiddle (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : ¬atFirst i) (hc1 : pastFirst i) (hc2 : ¬atLast i)
    (x0 : Vec F S2048x100 .f32) (x1 : Vec F S2048x1 .i32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__margin_loss_kernel i arg1 harg1 arg2 harg2 arg3 harg3) K } := by
  refine ⟨?_, fun E K => ?run⟩
  case run =>
    simp only [cc0__margin_loss_kernel_eq_skeleton]; unfold cc0__margin_loss_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- LAST (`i = 127`): from the output's buffer at `xo`, the body leaves its second store's piece and, over it, its third's. -/
noncomputable def runLast (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : ¬atFirst i) (hc1 : pastFirst i) (hc2 : atLast i)
    (x0 : Vec F S2048x100 .f32) (x1 : Vec F S2048x1 .i32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__margin_loss_kernel i arg1 harg1 arg2 harg2 arg3 harg3) K } := by
  refine ⟨?_, fun E K => ?run⟩
  case run =>
    simp only [cc0__margin_loss_kernel_eq_skeleton]; unfold cc0__margin_loss_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-! ## Each case's pieces cover the 1×1 block, and what they leave -/

theorem coverFirst (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : atFirst i) (hc1 : ¬pastFirst i) (hc2 : ¬atLast i) (x0 : Vec F S2048x100 .f32) (x1 : Vec F S2048x1 .i32) (y : S1x1.Idx) :
    ∃ pc ∈ (runFirst c i arg1 harg1 arg2 harg2 arg3 harg3 hc0 hc1 hc2 x0 x1).1, y ∈ pc.1.set :=
  View.cover_of_tiledL (runFirst c i arg1 harg1 arg2 harg2 arg3 harg3 hc0 hc1 hc2 x0 x1).1 S1x1.size (by sl_kernel_rfl) y

theorem coverMiddle (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : ¬atFirst i) (hc1 : pastFirst i) (hc2 : ¬atLast i) (x0 : Vec F S2048x100 .f32) (x1 : Vec F S2048x1 .i32) (xo : Vec F S1x1 .f32)
    (y : S1x1.Idx) :
    ∃ pc ∈ (runMiddle c i arg1 harg1 arg2 harg2 arg3 harg3 hc0 hc1 hc2 x0 x1 xo).1, y ∈ pc.1.set :=
  View.cover_of_tiledL (runMiddle c i arg1 harg1 arg2 harg2 arg3 harg3 hc0 hc1 hc2 x0 x1 xo).1 S1x1.size (by sl_kernel_rfl) y

theorem coverLast (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : ¬atFirst i) (hc1 : pastFirst i) (hc2 : atLast i) (x0 : Vec F S2048x100 .f32) (x1 : Vec F S2048x1 .i32) (xo : Vec F S1x1 .f32)
    (y : S1x1.Idx) :
    ∃ pc ∈ (runLast c i arg1 harg1 arg2 harg2 arg3 harg3 hc0 hc1 hc2 x0 x1 xo).1, y ∈ pc.1.set :=
  View.cover_of_tiledL (runLast c i arg1 harg1 arg2 harg2 arg3 harg3 hc0 hc1 hc2 x0 x1 xo).1 S1x1.size (by sl_kernel_rfl) y

/-- What FIRST leaves in the output's buffer: its pieces read back over junk. -/
def outFirst (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : atFirst i) (hc1 : ¬pastFirst i) (hc2 : ¬atLast i) (x0 : Vec F S2048x100 .f32) (x1 : Vec F S2048x1 .i32) : Vec F S1x1 .f32 :=
  VOut.read (Elt F) (VOut.writes (Elt F) VOut.junk (runFirst c i arg1 harg1 arg2 harg2 arg3 harg3 hc0 hc1 hc2 x0 x1).1)

/-- What MIDDLE leaves there, from `xo`. -/
def outMiddle (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : ¬atFirst i) (hc1 : pastFirst i) (hc2 : ¬atLast i) (x0 : Vec F S2048x100 .f32) (x1 : Vec F S2048x1 .i32) (xo : Vec F S1x1 .f32) :
    Vec F S1x1 .f32 :=
  VOut.read (Elt F) (VOut.writes (Elt F) VOut.junk (runMiddle c i arg1 harg1 arg2 harg2 arg3 harg3 hc0 hc1 hc2 x0 x1 xo).1)

/-- What LAST leaves there, from `xo`. -/
def outLast (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : ¬atFirst i) (hc1 : pastFirst i) (hc2 : atLast i) (x0 : Vec F S2048x100 .f32) (x1 : Vec F S2048x1 .i32) (xo : Vec F S1x1 .f32) :
    Vec F S1x1 .f32 :=
  VOut.read (Elt F) (VOut.writes (Elt F) VOut.junk (runLast c i arg1 harg1 arg2 harg2 arg3 harg3 hc0 hc1 hc2 x0 x1 xo).1)

end Cert.Kernel.Body

end
-- ==== Proof.BitsFrame.lean ====
/-
  The margin-loss kernel's frame (at any float instance `F`), from its body run case by case (`BitsRuns`).

  The output's 1×1 block never moves, so its staging buffer is carried from point to point: what it holds after the
  body at point `n` is defined by recursion on the point — FIRST's contents at point 0, then MIDDLE's (LAST's at point
  127) over what the point before left. With that as the proof data, the body obligation holds at every point (the
  point's case is decided by its number; an input's buffer holds its block; the output's buffer holds what the point
  before left, because it is written back after point 127 only and the body stores into it at every point), and the
  library's launch theorem for a region followed by host operations gives the run: every weakly fair execution
  terminates, the output array holds what the proof data says, the other buffers what the host operations make of them.
-/
import proofs.«141539_j22187801051754_1_alg».proof.Proof.BitsRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's staging buffer holds after each point -/

/-- The accumulation: after point 0 what FIRST leaves; after point `n + 1` what MIDDLE — at point 127, LAST — leaves
    over what point `n` left. -/
def outsAt (c : Dev nD) : (n : ℕ) → n < cfg0.N → Vec F S1x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((atFirst_iff ⟨0, hn⟩).mpr rfl) (fun h => Nat.not_succ_le_zero 0 ((pastFirst_iff ⟨0, hn⟩).mp h))
      (fun h => (by decide : (0 : ℕ) ≠ 127) ((atLast_iff ⟨0, hn⟩).mp h))
      (iblk m c 0 ⟨0, hn⟩) (iblk m c 1 ⟨0, hn⟩)
  | n + 1, hn =>
    if h2 : n + 1 = 127 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => Nat.succ_ne_zero n ((atFirst_iff ⟨n + 1, hn⟩).mp h)) ((pastFirst_iff ⟨n + 1, hn⟩).mpr (Nat.le_add_left 1 n))
        ((atLast_iff ⟨n + 1, hn⟩).mpr h2)
        (iblk m c 0 ⟨n + 1, hn⟩) (iblk m c 1 ⟨n + 1, hn⟩) (outsAt c n (Nat.lt_of_succ_lt hn))
    else
      outMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => Nat.succ_ne_zero n ((atFirst_iff ⟨n + 1, hn⟩).mp h)) ((pastFirst_iff ⟨n + 1, hn⟩).mpr (Nat.le_add_left 1 n))
        (fun h => h2 ((atLast_iff ⟨n + 1, hn⟩).mp h))
        (iblk m c 0 ⟨n + 1, hn⟩) (iblk m c 1 ⟨n + 1, hn⟩) (outsAt c n (Nat.lt_of_succ_lt hn))

/-- `outsAt` at point 0. -/
theorem outsAt_first (c : Dev nD) (t : Fin cfg0.N) (h0 : t.val = 0)
    (hc0 : atFirst (grid0.coords t)) (hc1 : ¬pastFirst (grid0.coords t)) (hc2 : ¬atLast (grid0.coords t)) :
    outsAt m c t.val t.isLt = outFirst c (grid0.coords t) (ms0 t) (hs0 t) (ms1 t) (hs1 t) (ms2 t) (hs2 t) hc0 hc1 hc2
      (iblk m c 0 t) (iblk m c 1 t) := by
  obtain ⟨n, hn⟩ := t
  cases n with
  | zero => rfl
  | succ n => exact absurd h0 (Nat.succ_ne_zero n)

/-- `outsAt` at a point strictly between the first and the last: MIDDLE over what the point before left. -/
theorem outsAt_middle (c : Dev nD) (t : Fin cfg0.N) (h0 : t.val ≠ 0) (h2 : t.val ≠ 127)
    (hc0 : ¬atFirst (grid0.coords t)) (hc1 : pastFirst (grid0.coords t)) (hc2 : ¬atLast (grid0.coords t)) :
    outsAt m c t.val t.isLt = outMiddle c (grid0.coords t) (ms0 t) (hs0 t) (ms1 t) (hs1 t) (ms2 t) (hs2 t) hc0 hc1 hc2
      (iblk m c 0 t) (iblk m c 1 t) (outsAt m c (t.val - 1) (Nat.lt_of_le_of_lt (Nat.sub_le _ _) t.isLt)) := by
  obtain ⟨n, hn⟩ := t
  cases n with
  | zero => exact absurd rfl h0
  | succ n => exact (dif_neg h2).trans rfl

/-- `outsAt` at the last point: LAST over what the point before left. -/
theorem outsAt_last (c : Dev nD) (t : Fin cfg0.N) (h2 : t.val = 127)
    (hc0 : ¬atFirst (grid0.coords t)) (hc1 : pastFirst (grid0.coords t)) (hc2 : atLast (grid0.coords t)) :
    outsAt m c t.val t.isLt = outLast c (grid0.coords t) (ms0 t) (hs0 t) (ms1 t) (hs1 t) (ms2 t) (hs2 t) hc0 hc1 hc2
      (iblk m c 0 t) (iblk m c 1 t) (outsAt m c (t.val - 1) (Nat.lt_of_le_of_lt (Nat.sub_le _ _) t.isLt)) := by
  obtain ⟨n, hn⟩ := t
  cases n with
  | zero => exact absurd (show (0 : ℕ) = 127 from h2) (by decide)
  | succ n => exact (dif_pos h2).trans rfl

/-! ## The pipeline's proof data -/

/-- The arrays as the region finds them; after the body at point `t` each input's buffer at its block and the output's
    at `outsAt`; nothing else described, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt) := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- After the first point the output's staging buffer holds what the body left at the point before: the buffer is
    written back after point 127 only, and the body stores into it at every point. -/
theorem before2 (c : Dev nD) (t : Fin cfg0.N) (h0 : t.val ≠ 0) (d) :
    (dats m 0 c).before 2 t d = (outsAt m c (t.val - 1) (Nat.lt_of_le_of_lt (Nat.sub_le _ _) t.isLt)) := by
  have hN : t.val < 128 := lt_of_lt_of_eq t.isLt (show cfg0.N = 128 from N_0)
  rw [Dat.before_out_kept _ 2 rfl t h0 (Bool.eq_false_iff.mpr fun h => by have := (flush0_2 _).mp h; dsimp only at this; omega)
    live2 (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1200000 in
/-- The body at any point: the point's number says which case it is in; the inputs' memrefs hold their blocks, the
    output's what the point before left; so that case's run applies, and what it leaves is `outsAt` at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
        unfold Dat.leavesExact; rw [live0 t], after0,
    show (dats m 0 c).leavesExact 1 t = owns (c : Thread nD τ) (ms1 t) fullShare ((dats m 0 c).after 1 t) from by
        unfold Dat.leavesExact; rw [live1 t], after1,
    show (dats m 0 c).leavesExact 2 t = owns (c : Thread nD τ) (ms2 t) fullShare ((dats m 0 c).after 2 t) from by
        unfold Dat.leavesExact; rw [live2 (grid0.coords t)], after2]
  have hN : t.val < 128 := lt_of_lt_of_eq t.isLt (show cfg0.N = 128 from N_0)
  by_cases h0 : t.val = 0
  · have hc0 : atFirst (grid0.coords t) := (atFirst_iff t).mpr h0
    have hc1 : ¬pastFirst (grid0.coords t) := fun h => by have := (pastFirst_iff t).mp h; omega
    have hc2 : ¬atLast (grid0.coords t) := fun h => by have := (atLast_iff t).mp h; omega
    rw [outsAt_first m c t h0 hc0 hc1 hc2]
    unfold outFirst
    iintro ⟨HΦ, Ho, ⟨%d0, H0⟩, ⟨%d1, H1⟩, ⟨%d2, H2⟩⟩
    iapply ((runFirst c (grid0.coords t) _ _ _ _ _ _ hc0 hc1 hc2 (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _ _)
  · have hc0 : ¬atFirst (grid0.coords t) := fun h => h0 ((atFirst_iff t).mp h)
    have hc1 : pastFirst (grid0.coords t) := (pastFirst_iff t).mpr (by omega)
    simp only [before2 m c t h0]
    by_cases h2 : t.val = 127
    · have hc2 : atLast (grid0.coords t) := (atLast_iff t).mpr h2
      rw [outsAt_last m c t h2 hc0 hc1 hc2]
      unfold outLast
      iintro ⟨HΦ, Ho, ⟨%d0, H0⟩, ⟨%d1, H1⟩, ⟨%d2, H2⟩⟩
      iapply ((runLast c (grid0.coords t) _ _ _ _ _ _ hc0 hc1 hc2 (iblk m c 0 t) (iblk m c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _)
    · have hc2 : ¬atLast (grid0.coords t) := fun h => h2 ((atLast_iff t).mp h)
      rw [outsAt_middle m c t h0 h2 hc0 hc1 hc2]
      unfold outMiddle
      iintro ⟨HΦ, Ho, ⟨%d0, H0⟩, ⟨%d1, H1⟩, ⟨%d2, H2⟩⟩
      iapply ((runMiddle c (grid0.coords t) _ _ _ _ _ _ hc0 hc1 hc2 (iblk m c 0 t) (iblk m c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (coverMiddle c _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data gives
    (the output array at what the write-back after point 127 wrote), every other unscoped buffer at what the host
    operations after the region make of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealRuns.lean ====
/-
  The margin-loss kernel's body, run once in each of its three control cases (at any float instance `F`).

  The grid has 128 points; point `t` sees rows `2048 t … 2048 t + 2047` of the input and of the targets, and ONE
  1×1 output block whose index never moves, so its staging buffer is carried from point to point and written back
  after the last point only. The body first computes the tile's sum `s` (a function of the two input blocks alone),
  then, under three conditions on the grid coordinate `i`:

    `i = 0`   : stores `s`                       (the accumulator is started),
    `i > 0`   : loads the buffer, stores `buffer + s` (the accumulator grows),
    `i = 127` : loads the buffer, stores `buffer / 262144` (the mean).

  So a point is in one of three cases: FIRST (`i = 0`: only the first store), MIDDLE (`0 < i < 127`: only the
  second), LAST (`i = 127`: the second, then the third on what the second left). In each case the body's triple is
  stated on whole staging memrefs: the inputs' buffers at their contents `x0`, `x1` and handed back unchanged; the
  output's buffer at anything (FIRST) or at the running contents `xo` (MIDDLE, LAST), handed back with the case's
  stores written — the list of pieces is whatever the symbolic run leaves, read back as values in `IdealFrame`.
-/
import proofs.«141539_j22187801051754_1_alg».proof.Proof.Gen.KernelIdeal.Frame
import proofs.«141539_j22187801051754_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, over the grid -/

/-- `i = 0`: the accumulator is started. -/
abbrev atFirst (i : grid0.Coords) : Prop := k0_cond1 i = 1#1
/-- `i > 0`: the accumulator grows. -/
abbrev pastFirst (i : grid0.Coords) : Prop := k0_cond2 i = 1#1
/-- `i = 127`: the mean is taken. -/
abbrev atLast (i : grid0.Coords) : Prop := k0_cond3 i = 1#1

theorem atFirst_iff : ∀ t : Fin cfg0.N, atFirst (grid0.coords t) ↔ t.val = 0 :=
  (by decide +kernel : ∀ t : Fin grid0.N, atFirst (grid0.coords t) ↔ t.val = 0)
theorem pastFirst_iff : ∀ t : Fin cfg0.N, pastFirst (grid0.coords t) ↔ 1 ≤ t.val :=
  (by decide +kernel : ∀ t : Fin grid0.N, pastFirst (grid0.coords t) ↔ 1 ≤ t.val)
theorem atLast_iff : ∀ t : Fin cfg0.N, atLast (grid0.coords t) ↔ t.val = 127 :=
  (by decide +kernel : ∀ t : Fin grid0.N, atLast (grid0.coords t) ↔ t.val = 127)

/-- At every coordinate one of the first two conditions holds (`i = 0` or `i > 0`), so the body stores into the
    output's buffer at every point: the printed idle table is `false` throughout. -/
theorem someStore : ∀ v : Fin 128,
    (!(Scalar.cmpi .ne (Scalar.extui (Scalar.cmpi .eq (BitVec.ofNat 32 v.val) 0#32)) 0#32 == 1#1)
      && !(Scalar.cmpi .ne (Scalar.extui (Scalar.cmpi .sgt (BitVec.ofNat 32 v.val) 0#32)) 0#32 == 1#1)
      && !(Scalar.cmpi .ne (Scalar.extui (Scalar.cmpi .eq (BitVec.ofNat 32 v.val) 127#32)) 0#32 == 1#1)) = false := by
  decide +kernel

theorem live0 : ∀ t : Fin cfg0.N, cfg0.idle 0 (grid0.coords t) = false := fun _ => rfl
theorem live1 : ∀ t : Fin cfg0.N, cfg0.idle 1 (grid0.coords t) = false := fun _ => rfl
theorem live2 : ∀ i : grid0.Coords, cfg0.idle 2 i = false := fun i => someStore (i 0)

/-! ## The staging memrefs the pipeline passes -/

abbrev ms0 (t : Fin cfg0.N) : Memref sig .tc .vmem S2048x100 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-- The output's one staging buffer, as a view: what a case leaves is stated by reading its pieces back through it. -/
abbrev VOut : View sig .tc .vmem S1x1 .f32 := (Memref.whole cc0_stg2_0 : Memref sig .tc .vmem S1x1 .f32).view

/-! ## The body's triple, case by case -/

set_option maxHeartbeats 1000000 in
/-- FIRST (`i = 0`): from the output's buffer at anything, the body leaves its first store's piece there. -/
noncomputable def runFirst (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : atFirst i) (hc1 : ¬pastFirst i) (hc2 : ¬atLast i)
    (x0 : Vec F S2048x100 .f32) (x1 : Vec F S2048x1 .i32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__margin_loss_kernel i arg1 harg1 arg2 harg2 arg3 harg3) K } := by
  refine ⟨?_, fun E K => ?run⟩
  case run =>
    simp only [cc0__margin_loss_kernel_eq_skeleton]; unfold cc0__margin_loss_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- MIDDLE (`0 < i < 127`): from the output's buffer at `xo`, the body leaves its second store's piece there. -/
noncomputable def runMiddle (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : ¬atFirst i) (hc1 : pastFirst i) (hc2 : ¬atLast i)
    (x0 : Vec F S2048x100 .f32) (x1 : Vec F S2048x1 .i32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__margin_loss_kernel i arg1 harg1 arg2 harg2 arg3 harg3) K } := by
  refine ⟨?_, fun E K => ?run⟩
  case run =>
    simp only [cc0__margin_loss_kernel_eq_skeleton]; unfold cc0__margin_loss_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- LAST (`i = 127`): from the output's buffer at `xo`, the body leaves its second store's piece and, over it, its third's. -/
noncomputable def runLast (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : ¬atFirst i) (hc1 : pastFirst i) (hc2 : atLast i)
    (x0 : Vec F S2048x100 .f32) (x1 : Vec F S2048x1 .i32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__margin_loss_kernel i arg1 harg1 arg2 harg2 arg3 harg3) K } := by
  refine ⟨?_, fun E K => ?run⟩
  case run =>
    simp only [cc0__margin_loss_kernel_eq_skeleton]; unfold cc0__margin_loss_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-! ## Each case's pieces cover the 1×1 block, and what they leave -/

theorem coverFirst (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : atFirst i) (hc1 : ¬pastFirst i) (hc2 : ¬atLast i) (x0 : Vec F S2048x100 .f32) (x1 : Vec F S2048x1 .i32) (y : S1x1.Idx) :
    ∃ pc ∈ (runFirst c i arg1 harg1 arg2 harg2 arg3 harg3 hc0 hc1 hc2 x0 x1).1, y ∈ pc.1.set :=
  View.cover_of_tiledL (runFirst c i arg1 harg1 arg2 harg2 arg3 harg3 hc0 hc1 hc2 x0 x1).1 S1x1.size (by sl_kernel_rfl) y

theorem coverMiddle (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : ¬atFirst i) (hc1 : pastFirst i) (hc2 : ¬atLast i) (x0 : Vec F S2048x100 .f32) (x1 : Vec F S2048x1 .i32) (xo : Vec F S1x1 .f32)
    (y : S1x1.Idx) :
    ∃ pc ∈ (runMiddle c i arg1 harg1 arg2 harg2 arg3 harg3 hc0 hc1 hc2 x0 x1 xo).1, y ∈ pc.1.set :=
  View.cover_of_tiledL (runMiddle c i arg1 harg1 arg2 harg2 arg3 harg3 hc0 hc1 hc2 x0 x1 xo).1 S1x1.size (by sl_kernel_rfl) y

theorem coverLast (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : ¬atFirst i) (hc1 : pastFirst i) (hc2 : atLast i) (x0 : Vec F S2048x100 .f32) (x1 : Vec F S2048x1 .i32) (xo : Vec F S1x1 .f32)
    (y : S1x1.Idx) :
    ∃ pc ∈ (runLast c i arg1 harg1 arg2 harg2 arg3 harg3 hc0 hc1 hc2 x0 x1 xo).1, y ∈ pc.1.set :=
  View.cover_of_tiledL (runLast c i arg1 harg1 arg2 harg2 arg3 harg3 hc0 hc1 hc2 x0 x1 xo).1 S1x1.size (by sl_kernel_rfl) y

/-- What FIRST leaves in the output's buffer: its pieces read back over junk. -/
def outFirst (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : atFirst i) (hc1 : ¬pastFirst i) (hc2 : ¬atLast i) (x0 : Vec F S2048x100 .f32) (x1 : Vec F S2048x1 .i32) : Vec F S1x1 .f32 :=
  VOut.read (Elt F) (VOut.writes (Elt F) VOut.junk (runFirst c i arg1 harg1 arg2 harg2 arg3 harg3 hc0 hc1 hc2 x0 x1).1)

/-- What MIDDLE leaves there, from `xo`. -/
def outMiddle (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : ¬atFirst i) (hc1 : pastFirst i) (hc2 : ¬atLast i) (x0 : Vec F S2048x100 .f32) (x1 : Vec F S2048x1 .i32) (xo : Vec F S1x1 .f32) :
    Vec F S1x1 .f32 :=
  VOut.read (Elt F) (VOut.writes (Elt F) VOut.junk (runMiddle c i arg1 harg1 arg2 harg2 arg3 harg3 hc0 hc1 hc2 x0 x1 xo).1)

/-- What LAST leaves there, from `xo`. -/
def outLast (c : Dev nD) (i : grid0.Coords) (arg1 : Memref sig .tc .vmem S2048x100 .f32) (harg1 : arg1.IsWhole)
    (arg2 : Memref sig .tc .vmem S2048x1 .i32) (harg2 : arg2.IsWhole) (arg3 : Memref sig .tc .vmem S1x1 .f32) (harg3 : arg3.IsWhole)
    (hc0 : ¬atFirst i) (hc1 : pastFirst i) (hc2 : atLast i) (x0 : Vec F S2048x100 .f32) (x1 : Vec F S2048x1 .i32) (xo : Vec F S1x1 .f32) :
    Vec F S1x1 .f32 :=
  VOut.read (Elt F) (VOut.writes (Elt F) VOut.junk (runLast c i arg1 harg1 arg2 harg2 arg3 harg3 hc0 hc1 hc2 x0 x1 xo).1)

end Cert.KernelIdeal.Body

end
-- ==== Proof.IdealFrame.lean ====
/-
  The margin-loss kernel's frame (at any float instance `F`), from its body run case by case (`IdealRuns`).

  The output's 1×1 block never moves, so its staging buffer is carried from point to point: what it holds after the
  body at point `n` is defined by recursion on the point — FIRST's contents at point 0, then MIDDLE's (LAST's at point
  127) over what the point before left. With that as the proof data, the body obligation holds at every point (the
  point's case is decided by its number; an input's buffer holds its block; the output's buffer holds what the point
  before left, because it is written back after point 127 only and the body stores into it at every point), and the
  library's launch theorem for a region followed by host operations gives the run: every weakly fair execution
  terminates, the output array holds what the proof data says, the other buffers what the host operations make of them.
-/
import proofs.«141539_j22187801051754_1_alg».proof.Proof.IdealRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's staging buffer holds after each point -/

/-- The accumulation: after point 0 what FIRST leaves; after point `n + 1` what MIDDLE — at point 127, LAST — leaves
    over what point `n` left. -/
def outsAt (c : Dev nD) : (n : ℕ) → n < cfg0.N → Vec F S1x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((atFirst_iff ⟨0, hn⟩).mpr rfl) (fun h => Nat.not_succ_le_zero 0 ((pastFirst_iff ⟨0, hn⟩).mp h))
      (fun h => (by decide : (0 : ℕ) ≠ 127) ((atLast_iff ⟨0, hn⟩).mp h))
      (iblk m c 0 ⟨0, hn⟩) (iblk m c 1 ⟨0, hn⟩)
  | n + 1, hn =>
    if h2 : n + 1 = 127 then
      outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => Nat.succ_ne_zero n ((atFirst_iff ⟨n + 1, hn⟩).mp h)) ((pastFirst_iff ⟨n + 1, hn⟩).mpr (Nat.le_add_left 1 n))
        ((atLast_iff ⟨n + 1, hn⟩).mpr h2)
        (iblk m c 0 ⟨n + 1, hn⟩) (iblk m c 1 ⟨n + 1, hn⟩) (outsAt c n (Nat.lt_of_succ_lt hn))
    else
      outMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => Nat.succ_ne_zero n ((atFirst_iff ⟨n + 1, hn⟩).mp h)) ((pastFirst_iff ⟨n + 1, hn⟩).mpr (Nat.le_add_left 1 n))
        (fun h => h2 ((atLast_iff ⟨n + 1, hn⟩).mp h))
        (iblk m c 0 ⟨n + 1, hn⟩) (iblk m c 1 ⟨n + 1, hn⟩) (outsAt c n (Nat.lt_of_succ_lt hn))

/-- `outsAt` at point 0. -/
theorem outsAt_first (c : Dev nD) (t : Fin cfg0.N) (h0 : t.val = 0)
    (hc0 : atFirst (grid0.coords t)) (hc1 : ¬pastFirst (grid0.coords t)) (hc2 : ¬atLast (grid0.coords t)) :
    outsAt m c t.val t.isLt = outFirst c (grid0.coords t) (ms0 t) (hs0 t) (ms1 t) (hs1 t) (ms2 t) (hs2 t) hc0 hc1 hc2
      (iblk m c 0 t) (iblk m c 1 t) := by
  obtain ⟨n, hn⟩ := t
  cases n with
  | zero => rfl
  | succ n => exact absurd h0 (Nat.succ_ne_zero n)

/-- `outsAt` at a point strictly between the first and the last: MIDDLE over what the point before left. -/
theorem outsAt_middle (c : Dev nD) (t : Fin cfg0.N) (h0 : t.val ≠ 0) (h2 : t.val ≠ 127)
    (hc0 : ¬atFirst (grid0.coords t)) (hc1 : pastFirst (grid0.coords t)) (hc2 : ¬atLast (grid0.coords t)) :
    outsAt m c t.val t.isLt = outMiddle c (grid0.coords t) (ms0 t) (hs0 t) (ms1 t) (hs1 t) (ms2 t) (hs2 t) hc0 hc1 hc2
      (iblk m c 0 t) (iblk m c 1 t) (outsAt m c (t.val - 1) (Nat.lt_of_le_of_lt (Nat.sub_le _ _) t.isLt)) := by
  obtain ⟨n, hn⟩ := t
  cases n with
  | zero => exact absurd rfl h0
  | succ n => exact (dif_neg h2).trans rfl

/-- `outsAt` at the last point: LAST over what the point before left. -/
theorem outsAt_last (c : Dev nD) (t : Fin cfg0.N) (h2 : t.val = 127)
    (hc0 : ¬atFirst (grid0.coords t)) (hc1 : pastFirst (grid0.coords t)) (hc2 : atLast (grid0.coords t)) :
    outsAt m c t.val t.isLt = outLast c (grid0.coords t) (ms0 t) (hs0 t) (ms1 t) (hs1 t) (ms2 t) (hs2 t) hc0 hc1 hc2
      (iblk m c 0 t) (iblk m c 1 t) (outsAt m c (t.val - 1) (Nat.lt_of_le_of_lt (Nat.sub_le _ _) t.isLt)) := by
  obtain ⟨n, hn⟩ := t
  cases n with
  | zero => exact absurd (show (0 : ℕ) = 127 from h2) (by decide)
  | succ n => exact (dif_pos h2).trans rfl

/-! ## The pipeline's proof data -/

/-- The arrays as the region finds them; after the body at point `t` each input's buffer at its block and the output's
    at `outsAt`; nothing else described, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt) := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- After the first point the output's staging buffer holds what the body left at the point before: the buffer is
    written back after point 127 only, and the body stores into it at every point. -/
theorem before2 (c : Dev nD) (t : Fin cfg0.N) (h0 : t.val ≠ 0) (d) :
    (dats m 0 c).before 2 t d = (outsAt m c (t.val - 1) (Nat.lt_of_le_of_lt (Nat.sub_le _ _) t.isLt)) := by
  have hN : t.val < 128 := lt_of_lt_of_eq t.isLt (show cfg0.N = 128 from N_0)
  rw [Dat.before_out_kept _ 2 rfl t h0 (Bool.eq_false_iff.mpr fun h => by have := (flush0_2 _).mp h; dsimp only at this; omega)
    live2 (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1200000 in
/-- The body at any point: the point's number says which case it is in; the inputs' memrefs hold their blocks, the
    output's what the point before left; so that case's run applies, and what it leaves is `outsAt` at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
        unfold Dat.leavesExact; rw [live0 t], after0,
    show (dats m 0 c).leavesExact 1 t = owns (c : Thread nD τ) (ms1 t) fullShare ((dats m 0 c).after 1 t) from by
        unfold Dat.leavesExact; rw [live1 t], after1,
    show (dats m 0 c).leavesExact 2 t = owns (c : Thread nD τ) (ms2 t) fullShare ((dats m 0 c).after 2 t) from by
        unfold Dat.leavesExact; rw [live2 (grid0.coords t)], after2]
  have hN : t.val < 128 := lt_of_lt_of_eq t.isLt (show cfg0.N = 128 from N_0)
  by_cases h0 : t.val = 0
  · have hc0 : atFirst (grid0.coords t) := (atFirst_iff t).mpr h0
    have hc1 : ¬pastFirst (grid0.coords t) := fun h => by have := (pastFirst_iff t).mp h; omega
    have hc2 : ¬atLast (grid0.coords t) := fun h => by have := (atLast_iff t).mp h; omega
    rw [outsAt_first m c t h0 hc0 hc1 hc2]
    unfold outFirst
    iintro ⟨HΦ, Ho, ⟨%d0, H0⟩, ⟨%d1, H1⟩, ⟨%d2, H2⟩⟩
    iapply ((runFirst c (grid0.coords t) _ _ _ _ _ _ hc0 hc1 hc2 (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _ _)
  · have hc0 : ¬atFirst (grid0.coords t) := fun h => h0 ((atFirst_iff t).mp h)
    have hc1 : pastFirst (grid0.coords t) := (pastFirst_iff t).mpr (by omega)
    simp only [before2 m c t h0]
    by_cases h2 : t.val = 127
    · have hc2 : atLast (grid0.coords t) := (atLast_iff t).mpr h2
      rw [outsAt_last m c t h2 hc0 hc1 hc2]
      unfold outLast
      iintro ⟨HΦ, Ho, ⟨%d0, H0⟩, ⟨%d1, H1⟩, ⟨%d2, H2⟩⟩
      iapply ((runLast c (grid0.coords t) _ _ _ _ _ _ hc0 hc1 hc2 (iblk m c 0 t) (iblk m c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _)
    · have hc2 : ¬atLast (grid0.coords t) := fun h => h2 ((atLast_iff t).mp h)
      rw [outsAt_middle m c t h0 h2 hc0 hc1 hc2]
      unfold outMiddle
      iintro ⟨HΦ, Ho, ⟨%d0, H0⟩, ⟨%d1, H1⟩, ⟨%d2, H2⟩⟩
      iapply ((runMiddle c (grid0.coords t) _ _ _ _ _ _ hc0 hc1 hc2 (iblk m c 0 t) (iblk m c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (coverMiddle c _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data gives
    (the output array at what the write-back after point 127 wrote), every other unscoped buffer at what the host
    operations after the region make of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.IdealValue.lean ====
/-
  What the margin-loss kernel computes (at any float instance `F`), read off its frame run.

  Each case of the body leaves ONE covering store's payload in the output's 1×1 staging buffer: FIRST the tile's sum
  `s(x, t)` of the point's two input blocks; MIDDLE `xo + s(x, t)` over the running contents `xo`; LAST that, divided by
  262144. So after point `n < 127` the buffer holds the running total `acc n` — `s` of block 0, then `+ s` of block 1, …
  in point order — by induction on the point, and after point 127 it holds `acc 127 / 262144`. The one write-back,
  after point 127, writes the whole 1×1 array; the host line after the region reshapes it to the scalar result.
-/
import proofs.«141539_j22187801051754_1_alg».proof.Proof.IdealFrame
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-! ## What each case leaves -/

/-- FIRST leaves the tile's sum of the two input blocks. -/
theorem outFirst_eq (c : Dev nD) (i : grid0.Coords) (a1 : Memref sig .tc .vmem S2048x100 .f32) (h1 : a1.IsWhole)
    (a2 : Memref sig .tc .vmem S2048x1 .i32) (h2 : a2.IsWhole) (a3 : Memref sig .tc .vmem S1x1 .f32) (h3 : a3.IsWhole)
    (hc0 : atFirst i) (hc1 : ¬pastFirst i) (hc2 : ¬atLast i) (x0 : Vec F S2048x100 .f32) (x1 : Vec F S2048x1 .i32) :
    outFirst c i a1 h1 a2 h2 a3 h3 hc0 hc1 hc2 x0 x1 = k0_pay1 x0 x1 := by
  unfold outFirst
  rw [View.read_writes_eq_canon _ _ _ (coverFirst c i a1 h1 a2 h2 a3 h3 hc0 hc1 hc2 x0 x1)]
  unfold runFirst
  dsimp only
  rw [View.canon_unit_zero hz]
  simp only [View.readAt_eq_ld, h1.read_unread, h2.read_unread, View.ld_unit_zero (S := S2048x100) hz,
    View.ld_unit_zero (S := S2048x1) hz]

/-- MIDDLE leaves the running contents plus the tile's sum. -/
theorem outMiddle_eq (c : Dev nD) (i : grid0.Coords) (a1 : Memref sig .tc .vmem S2048x100 .f32) (h1 : a1.IsWhole)
    (a2 : Memref sig .tc .vmem S2048x1 .i32) (h2 : a2.IsWhole) (a3 : Memref sig .tc .vmem S1x1 .f32) (h3 : a3.IsWhole)
    (hc0 : ¬atFirst i) (hc1 : pastFirst i) (hc2 : ¬atLast i) (x0 : Vec F S2048x100 .f32) (x1 : Vec F S2048x1 .i32) (xo : Vec F S1x1 .f32) :
    outMiddle c i a1 h1 a2 h2 a3 h3 hc0 hc1 hc2 x0 x1 xo = k0_pay2 x0 x1 xo := by
  unfold outMiddle
  rw [View.read_writes_eq_canon _ _ _ (coverMiddle c i a1 h1 a2 h2 a3 h3 hc0 hc1 hc2 x0 x1 xo)]
  unfold runMiddle
  dsimp only
  rw [View.canon_unit_zero hz]
  simp only [View.readAt_eq_ld, h1.read_unread, h2.read_unread, h3.read_unread, View.ld_unit_zero (S := S2048x100) hz,
    View.ld_unit_zero (S := S2048x1) hz, View.ld_unit_zero (S := S1x1) hz]

/-- LAST leaves that sum divided: its last store's payload, over a read-back of what its first store left. -/
theorem outLast_eq (c : Dev nD) (i : grid0.Coords) (a1 : Memref sig .tc .vmem S2048x100 .f32) (h1 : a1.IsWhole)
    (a2 : Memref sig .tc .vmem S2048x1 .i32) (h2 : a2.IsWhole) (a3 : Memref sig .tc .vmem S1x1 .f32) (h3 : a3.IsWhole)
    (hc0 : ¬atFirst i) (hc1 : pastFirst i) (hc2 : atLast i) (x0 : Vec F S2048x100 .f32) (x1 : Vec F S2048x1 .i32) (xo : Vec F S1x1 .f32) :
    outLast c i a1 h1 a2 h2 a3 h3 hc0 hc1 hc2 x0 x1 xo = k0_pay3 (k0_pay2 x0 x1 xo) := by
  unfold outLast
  rw [View.read_writes_eq_canon _ _ _ (coverLast c i a1 h1 a2 h2 a3 h3 hc0 hc1 hc2 x0 x1 xo)]
  unfold runLast
  dsimp only
  sl_unfold_words
  rw [View.canon_cons_unit_zero (S := S1x1) hz]
  simp only [View.readCov_unit_zero (S := S1x1) _ hz, View.readAt_eq_ld, h1.read_unread, h2.read_unread, h3.read_unread,
    View.ld_unit_zero (S := S2048x100) hz, View.ld_unit_zero (S := S2048x1) hz, View.ld_unit_zero (S := S1x1) hz]

/-! ## The conditions at a point, from its number -/

theorem conds_first (t : Fin cfg0.N) (h0 : t.val = 0) :
    atFirst (grid0.coords t) ∧ ¬pastFirst (grid0.coords t) ∧ ¬atLast (grid0.coords t) :=
  ⟨(atFirst_iff t).mpr h0, fun h => by have := (pastFirst_iff t).mp h; omega, fun h => by have := (atLast_iff t).mp h; omega⟩

theorem conds_middle (t : Fin cfg0.N) (h0 : t.val ≠ 0) (h2 : t.val ≠ 127) :
    ¬atFirst (grid0.coords t) ∧ pastFirst (grid0.coords t) ∧ ¬atLast (grid0.coords t) :=
  ⟨fun h => h0 ((atFirst_iff t).mp h), (pastFirst_iff t).mpr (by omega), fun h => h2 ((atLast_iff t).mp h)⟩

theorem conds_last (t : Fin cfg0.N) (h2 : t.val = 127) :
    ¬atFirst (grid0.coords t) ∧ pastFirst (grid0.coords t) ∧ atLast (grid0.coords t) :=
  ⟨fun h => by have := (atFirst_iff t).mp h; omega, (pastFirst_iff t).mpr (by omega), (atLast_iff t).mpr h2⟩

/-! ## The running total -/

/-- The running total after point `n`: the first tile's sum, then each later tile's sum added on, in point order. -/
def acc (c : Dev nD) : (n : ℕ) → n < cfg0.N → Vec F S1x1 .f32
  | 0, h => k0_pay1 (iblk m c 0 ⟨0, h⟩) (iblk m c 1 ⟨0, h⟩)
  | n + 1, h => k0_pay2 (iblk m c 0 ⟨n + 1, h⟩) (iblk m c 1 ⟨n + 1, h⟩) (acc c n (Nat.lt_of_succ_lt h))

/-- Before the last point the output's staging buffer holds the running total — by induction on the point. -/
theorem outsAt_eq_acc (c : Dev nD) : ∀ (n : ℕ) (h : n < cfg0.N), n ≠ 127 → outsAt m c n h = acc m c n h
  | 0, h, _ => by
    obtain ⟨hc0, hc1, hc2⟩ := conds_first ⟨0, h⟩ rfl
    exact (outsAt_first m c ⟨0, h⟩ rfl hc0 hc1 hc2).trans (outFirst_eq ..)
  | n + 1, h, h2 => by
    have hN : n + 1 < 128 := lt_of_lt_of_eq h (show cfg0.N = 128 from N_0)
    obtain ⟨hc0, hc1, hc2⟩ := conds_middle ⟨n + 1, h⟩ (Nat.succ_ne_zero n) h2
    rw [outsAt_middle m c ⟨n + 1, h⟩ (Nat.succ_ne_zero n) h2 hc0 hc1 hc2, outMiddle_eq]
    show k0_pay2 _ _ (outsAt m c n _) = k0_pay2 _ _ (acc m c n _)
    rw [outsAt_eq_acc c n _ (by omega)]

/-- After the last point it holds the total, divided. -/
theorem outsAt_at_last (c : Dev nD) (n : ℕ) (h : n + 1 < cfg0.N) (h2 : n + 1 = 127) :
    outsAt m c (n + 1) h = k0_pay3 (acc m c (n + 1) h) := by
  obtain ⟨hc0, hc1, hc2⟩ := conds_last ⟨n + 1, h⟩ h2
  rw [outsAt_last m c ⟨n + 1, h⟩ h2 hc0 hc1 hc2, outLast_eq]
  show k0_pay3 (k0_pay2 _ _ (outsAt m c n _)) = k0_pay3 (k0_pay2 _ _ (acc m c n _))
  rw [outsAt_eq_acc m c n _ (by omega)]

/-! ## The result array, and the scalar the host line makes of it -/

/-- The last grid point. -/
def tLast : Fin cfg0.N := ⟨127, by rw [show cfg0.N = 128 from N_0]; decide⟩

/-- What the kernel leaves in its 1×1 result array: the total after the last point, divided. -/
abbrev result (c : Dev nD) : Buf (Elt F) ((c : Thread nD τ).loc main_v1) := k0_pay3 (acc m c 127 tLast.isLt)

/-- The one write-back, after point 127, writes it: block (0, 0) of the 1×1 array is the array. -/
theorem flushed_eq (c : Dev nD) (t : Fin cfg0.N) (hf : (cfg0.win 2).flush t = true) :
    (dats m 0 c).flushed 2 t = ((cfg0.win 2).blk t).view.read (Elt F) (result m c) := by
  have hN : cfg0.N = 128 := N_0
  have h127 : t.val = 127 := by have := (flush0_2 t).mp hf; have := t.isLt; omega
  obtain rfl : t = tLast := Fin.ext h127
  show (cfg0.win 2).cut (grid0.coords tLast) ((dats m 0 c).after 2 tLast) = _
  rw [after2]
  show (cfg0.win 2).cut (grid0.coords tLast) (outsAt m c (126 + 1) tLast.isLt) = _
  rw [outsAt_at_last m c 126 tLast.isLt rfl]
  have hz' : (fun a => win0_2.index tLast a * main_v1.ty.shape.size a) = fun _ => 0 := funext fun a => by fin_cases a <;> decide
  exact (Memref.read_access_unit_zero (Elt F) main_v1 hz' (fun a => by rw [congrFun hz' a]; simp) (result m c)).symm

/-- So the result array ends holding `result`. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v1).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The host line after the region reshapes the 1×1 array to the scalar result. -/
theorem tail_eq (c : Dev nD) :
    Pipeline.afterTail₀ cfgs (dats m) 0 (V0 m) [hostOps1] c main_v2
      = (shapeCast S_ (result m c) shapeCasts_S1x1_S_ : Buf (Elt F) ((c : Thread nD τ).loc main_v2)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = result m c :=
    (Pipeline.withArrays_arr spec0 launch0.win.arr_inj c _ _ 2).trans (final m c)
  funext i
  show shapeCast S_ (Pipeline.withArrays (cfgs 0).spec c (V0 m c) (fun w => (dats m 0 c).arrAt w (cfgs 0).N)
      (Proc.devRef .tc main_v1)) shapeCasts_S1x1_S_ i = _
  rw [e]

/-- The run, read: the scalar result at the reshaped `result`, the arguments unchanged. -/
theorem run : θ_run defs (onTc (τ := τ) (main (F := F))) ⟨m, fun _ => 0, ρ⟩ fun r => ∀ c : Dev nD,
      r.2.mem ((c.tc : Thread nD τ).loc main_v2)
        = (shapeCast S_ (result m c) shapeCasts_S1x1_S_ : Buf (Elt F) ((c : Thread nD τ).loc main_v2))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Body

end
-- ==== Proof.SumLaws.lean ====
/-
  Summation laws used to join the two sides of the margin-loss claim. They import no program.

  The kernel walks the 262144 rows in 128 tiles of 2048 rows: tile `t` holds rows `2048 * t + r`, `r < 2048`.
  Row sums are taken inside a tile, the tile sums are then added up point after point, first to last. The reference
  takes ONE sum over every (row, class) pair. In a commutative additive monoid — the extended reals under `+` are one,
  with no finiteness asked — these are the same sum:

    * `sum_rows_by_tile`: a sum over the 262144 rows is the sum over the tiles of the sums over a tile's rows;
    * `leftFold_eq_sum`: adding `p 0, p 1, …, p n` from the left, one after the other, is `∑ k ≤ n, p k`.

  `marginTerm` is the one (row, class) term both programs sum, as an extended real: for probability `x`, the row's
  target class `tgt` and the class `col`, it is `max(0, 0.9 − x)²` when `tgt = col` and `0.5 · (x − 0.1)²` otherwise,
  the three constants the f32 values of 0.9, 0.1 and 0.5 (the same words in both programs, so never evaluated).
-/
import Idealize.ShloMosaic.PureOps.Ideal
import Idealize.ShloMosaic.Lib.ValueIdx

namespace Cert.SumLaws

open Idealize.ShloMosaic

/-- The margin loss's term at one (row, class) pair: the target class's `max(0, 0.9 − x)²`, any other class's
    `0.5 · (x − 0.1)²`. -/
noncomputable def marginTerm (x : Ideal .f32) (tgt col : BitVec 32) : Ideal .f32 :=
  Scalar.select (IntOp.cmpi .eq tgt col)
    (FloatOps.mulf
      (FloatOps.maximumf (FloatOps.ofBits .f32 0x00000000#32) (FloatOps.subf (FloatOps.ofBits .f32 0x3F666666#32) x))
      (FloatOps.maximumf (FloatOps.ofBits .f32 0x00000000#32) (FloatOps.subf (FloatOps.ofBits .f32 0x3F666666#32) x)))
    (FloatOps.mulf (FloatOps.ofBits .f32 0x3F000000#32)
      (FloatOps.mulf (FloatOps.subf x (FloatOps.ofBits .f32 0x3DCCCCCD#32)) (FloatOps.subf x (FloatOps.ofBits .f32 0x3DCCCCCD#32))))

/-- Row `r` of tile `t` is row `2048 * t + r` of the whole array. -/
def tileRow (t : Fin 128) (r : Fin 2048) : Fin 262144 := ⟨2048 * t.val + r.val, by omega⟩

@[simp] theorem tileRow_val (t : Fin 128) (r : Fin 2048) : (tileRow t r).val = 2048 * t.val + r.val := rfl

/-- The rows are the (tile, row-in-tile) pairs: `R ↦ (R / 2048, R % 2048)`. -/
def tileEquiv : Fin 128 × Fin 2048 ≃ Fin 262144 where
  toFun p := tileRow p.1 p.2
  invFun R := (⟨R.val / 2048, by omega⟩, ⟨R.val % 2048, by omega⟩)
  left_inv p := by
    obtain ⟨t, r⟩ := p
    refine Prod.ext (Fin.ext ?_) (Fin.ext ?_)
    · show (2048 * t.val + r.val) / 2048 = t.val
      omega
    · show (2048 * t.val + r.val) % 2048 = r.val
      omega
  right_inv R := Fin.ext (by
    show 2048 * (R.val / 2048) + R.val % 2048 = R.val
    omega)

/-- A sum over all rows, tile by tile. -/
theorem sum_rows_by_tile {M : Type*} [AddCommMonoid M] (g : Fin 262144 → M) :
    ∑ R : Fin 262144, g R = ∑ t : Fin 128, ∑ r : Fin 2048, g (tileRow t r) := by
  rw [← Equiv.sum_comp tileEquiv g, Fintype.sum_prod_type]
  rfl

/-- Adding `p 0`, then `p 1`, … then `p n`, always onto the running total from the left. -/
def leftFold {M : Type*} [Add M] (p : ℕ → M) : ℕ → M
  | 0 => p 0
  | n + 1 => leftFold p n + p (n + 1)

/-- The running total after `n + 1` terms is their sum. -/
theorem leftFold_eq_sum {M : Type*} [AddCommMonoid M] (p : ℕ → M) (n : ℕ) :
    leftFold p n = ∑ k ∈ Finset.range (n + 1), p k := by
  induction n with
  | zero => simp [leftFold]
  | succ n ih => rw [leftFold, ih, Finset.sum_range_succ _ (n + 1)]

end Cert.SumLaws
-- ==== Proof.IdealSum.lean ====
/-
  The margin-loss kernel's result at the ideal instance, as one quotient of one sum.

  At `Ideal` a lane reduction is a plain finite sum, so a tile's sum `s` is `∑ r < 2048, ∑ c < 100` of the margin term of
  the tile's entry `(r, c)`, the row's target read from the tile's target column, the class `c` from the lane counter.
  The running total after point `n` is the left fold of the tiles' sums, hence their sum; tile `t`'s row `r` is row
  `2048 t + r` of the input array (a block's coordinate is block index × block size + the coordinate inside), and of
  the target array through the host's reshape `[262144] → [262144, 1]`. So the kernel's scalar is
  `(∑ t < 128, ∑ r < 2048, ∑ c < 100, term(row 2048 t + r, class c)) / 262144`.
-/
import proofs.«141539_j22187801051754_1_alg».proof.Proof.IdealValue
import proofs.«141539_j22187801051754_1_alg».proof.Proof.SumLaws
import Idealize.ShloMosaic.PureOps.Ideal.Laws
import Idealize.ShloMosaic.Lib.ValueIdx
import Idealize.ShloMosaic.Lib.Pipeline.Value

set_option maxRecDepth 16384

noncomputable section

namespace Cert.KernelIdeal.Body

open Cert.KernelIdeal Cert.KernelIdeal.Gen Cert.SumLaws
open Idealize.ShloMosaic Idealize.ShloMosaic.TcCoe Idealize.ShloMosaic.ValueIdx Idealize.SL.Sem

/-! ## One tile's sum -/

/-- The tile's sum, at the 1×1 block's one index: the double sum of the margin terms over the tile's rows and the classes. -/
theorem tileSum_apply (x0 : FVec Ideal S2048x100 .f32) (x1 : IVec S2048x1 32) (j : S1x1.Idx) :
    k0_pay1 (F := Ideal) x0 x1 j
      = ∑ r : Fin 2048, ∑ cc : Fin 100, marginTerm (x0 (ix2 r cc)) (x1 (ix2 r (0 : Fin 1))) (BitVec.ofNat 32 cc.val) := by
  unfold k0_pay1
  refine (shapeCast_addUnit_apply ![1] _ _ j).trans ?_
  refine (Ideal.multiReduction_add_single _ 0x00000000#32 reduces_S2048x1_S1 (.inl rfl) rfl _).trans ?_
  refine Finset.sum_congr rfl fun r _ => ?_
  have hj1 : ((j 1 : Fin 1) : Nat) < 1 := (j 1).isLt
  refine (shapeCast_apply _ _ _ (ix1 (⟨r.val, r.isLt⟩ : Fin 2048)) ?_).trans ?_
  · rw [Shape.rowMajor_val_one, Shape.rowMajor_val_two]
    show r.val = r.val * 1 + (j 1).val
    omega
  refine (Ideal.multiReduction_add_single _ 0x00000000#32 reduces_S2048x100_S2048 (.inl rfl) rfl _).trans ?_
  refine Finset.sum_congr rfl fun cc _ => ?_
  have e : reduces_S2048x100_S2048.lift (ix1 (⟨r.val, r.isLt⟩ : Fin 2048)) cc = ix2 (⟨r.val, r.isLt⟩ : Fin 2048) (⟨cc.val, cc.isLt⟩ : Fin 100) :=
    funext fun a => Fin.ext (by match a with | ⟨0, _⟩ => rfl | ⟨1, _⟩ => rfl)
  rw [e]
  have eb : broadcastTo S2048x100 (shapeCast S2048x1 x1 shapeCasts_S2048x1_S2048x1) broadcasts_S2048x1_S2048x100
      (ix2 (⟨r.val, r.isLt⟩ : Fin 2048) (⟨cc.val, cc.isLt⟩ : Fin 100)) = x1 (ix2 (⟨r.val, r.isLt⟩ : Fin 2048) (0 : Fin 1)) := by
    rw [shapeCast_self]
    exact broadcastTo_apply x1 _ _ (ix2 (⟨r.val, r.isLt⟩ : Fin 2048) (0 : Fin 1)) (fun a => match a with
      | ⟨0, _⟩ => by show r.val = if (2048 : Nat) = 1 then 0 else r.val; rw [if_neg (by decide)]
      | ⟨1, _⟩ => by show 0 = if (1 : Nat) = 1 then 0 else cc.val; rw [if_pos rfl])
  have ei : iota .tc S2048x100 32 [1] iota_S2048x100_d1_w32 (ix2 (⟨r.val, r.isLt⟩ : Fin 2048) (⟨cc.val, cc.isLt⟩ : Fin 100))
      = BitVec.ofNat 32 cc.val := iota_single_apply _ _ _ _ _ _
  show Scalar.select (IntOp.cmpi .eq
      (broadcastTo S2048x100 (shapeCast S2048x1 x1 shapeCasts_S2048x1_S2048x1) broadcasts_S2048x1_S2048x100
        (ix2 (⟨r.val, r.isLt⟩ : Fin 2048) (⟨cc.val, cc.isLt⟩ : Fin 100)))
      (iota .tc S2048x100 32 [1] iota_S2048x100_d1_w32 (ix2 (⟨r.val, r.isLt⟩ : Fin 2048) (⟨cc.val, cc.isLt⟩ : Fin 100)))) _ _ = _
  rw [eb, ei]
  rfl

/-! ## The blocks are rows of the arrays -/

section Blocks

variable {F : FTy → Type} [FloatOps F]
variable (m : (ℓ : Loc nD τ sig) → Buf (Elt F) ℓ)

/-- Both input windows step one block of 2048 rows per point and stay in column block 0. -/
theorem index_facts : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- Entry `(r, cc)` of the input window's block at point `t` is entry `(2048 t + r, cc)` of the input array. -/
theorem xblk_apply (c : Dev nD) (t : Fin cfg0.N) (t' : Fin 128) (ht : t'.val = t.val) (r : Fin 2048) (cc : Fin 100) :
    (iblk m c 0 t : Vec F S2048x100 .f32) (ix2 r cc) = m ((c : Thread nD τ).loc main_arg0) (ix2 (tileRow t' r) cc) := by
  have hi := (index_facts t).1
  unfold iblk
  rw [View.read_apply]
  show V m c main_arg0 _ = m ((c : Thread nD τ).loc main_arg0) _
  rw [V_main_arg0]
  congr 1
  funext a
  apply Fin.ext
  match a with
  | ⟨0, _⟩ => show win0_0.index t 0 * 2048 + 1 * r.val = 2048 * t'.val + r.val; rw [hi.1, ht]; omega
  | ⟨1, _⟩ => show win0_0.index t 1 * 100 + 1 * cc.val = cc.val; rw [hi.2]; omega

/-- The host line before the region reshapes the targets `[262144] → [262144, 1]`. -/
theorem V_targets (c : Dev nD) :
    (V m c main_v0 : S262144x1.Idx → BitVec 32) = shapeCast S262144x1 (m ((c : Thread nD τ).loc main_arg1)) shapeCasts_S262144_S262144x1 := by
  show StableHlo.after hostOps0 (fun b => m (c, b)) (Proc.devRef .tc main_v0) = _
  after_results
  rfl

/-- Entry `(r, 0)` of the target window's block at point `t` is the target of row `2048 t + r`. -/
theorem tblk_apply (c : Dev nD) (t : Fin cfg0.N) (t' : Fin 128) (ht : t'.val = t.val) (r : Fin 2048) :
    (iblk m c 1 t : Vec F S2048x1 .i32) (ix2 r (0 : Fin 1)) = m ((c : Thread nD τ).loc main_arg1) (ix1 (tileRow t' r)) := by
  have hi := (index_facts t).2
  unfold iblk
  rw [View.read_apply]
  show (V m c main_v0 : S262144x1.Idx → BitVec 32) _ = m ((c : Thread nD τ).loc main_arg1) _
  rw [V_targets]
  refine shapeCast_apply _ _ _ (ix1 (tileRow t' r)) ?_
  rw [Shape.rowMajor_val_one, Shape.rowMajor_val_two]
  show 2048 * t'.val + r.val = (win0_1.index t 0 * 2048 + 1 * r.val) * 1 + (win0_1.index t 1 * 1 + 1 * 0)
  rw [hi.1, hi.2, ht]; omega

end Blocks

/-! ## The running total, and the scalar -/

section Total

variable (m : (ℓ : Loc nD τ sig) → Buf (Elt Ideal) ℓ)

/-- The 1×1 block's one index. -/
abbrev j00 : S1x1.Idx := ix2 (0 : Fin 1) (0 : Fin 1)

/-- Tile `k`'s sum (zero past the grid, where it is never read). -/
def tile (c : Dev nD) (k : ℕ) : EReal :=
  if h : k < cfg0.N then k0_pay1 (F := Ideal) (iblk m c 0 ⟨k, h⟩) (iblk m c 1 ⟨k, h⟩) j00 else 0

/-- The running total after point `n` is the tiles' sums added up from the left. -/
theorem acc_apply (c : Dev nD) : ∀ (n : ℕ) (h : n < cfg0.N), acc m c n h j00 = leftFold (tile m c) n
  | 0, h => by
    show k0_pay1 (F := Ideal) _ _ j00 = tile m c 0
    unfold tile; rw [dif_pos h]
  | n + 1, h => by
    show k0_pay2 (F := Ideal) _ _ (acc m c n _) j00 = leftFold (tile m c) n + tile m c (n + 1)
    unfold k0_pay2
    rw [addf_apply, shapeCast_self, acc_apply c n]
    unfold tile; rw [dif_pos h]

/-- Tile `t`'s sum, over the arrays' entries. -/
theorem tile_eq (c : Dev nD) (t : Fin 128) :
    tile m c t.val = ∑ r : Fin 2048, ∑ cc : Fin 100,
      marginTerm (m ((c : Thread nD τ).loc main_arg0) (ix2 (tileRow t r) cc)) (m ((c : Thread nD τ).loc main_arg1) (ix1 (tileRow t r)))
        (BitVec.ofNat 32 cc.val) := by
  have h : t.val < cfg0.N := lt_of_lt_of_eq t.isLt (show (128 : ℕ) = cfg0.N from N_0.symm)
  unfold tile; rw [dif_pos h, tileSum_apply]
  refine Finset.sum_congr rfl fun r _ => Finset.sum_congr rfl fun cc _ => ?_
  rw [xblk_apply m c ⟨t.val, h⟩ t rfl r cc, tblk_apply m c ⟨t.val, h⟩ t rfl r]

/-- The kernel's scalar: the sum over every (row, class) pair of the margin term, divided by 262144. -/
theorem scalar_apply (c : Dev nD) (i : S_.Idx) :
    shapeCast S_ (result m c) shapeCasts_S1x1_S_ i
      = Ideal.div (∑ R : Fin 262144, ∑ cc : Fin 100,
            marginTerm (m ((c : Thread nD τ).loc main_arg0) (ix2 R cc)) (m ((c : Thread nD τ).loc main_arg1) (ix1 R)) (BitVec.ofNat 32 cc.val))
          (Ideal.ofBits .f32 0x48800000#32) := by
  have hi : ((S_.rowMajor i : Fin S_.numel) : ℕ) < 1 := (S_.rowMajor i).isLt
  refine (shapeCast_apply _ _ i j00 (by rw [Shape.rowMajor_val_two]; show 0 * 1 + 0 = _; omega)).trans ?_
  show k0_pay3 (F := Ideal) (acc m c 127 tLast.isLt) j00 = _
  unfold k0_pay3
  rw [divf_apply, shapeCast_self]
  refine congrArg₂ Ideal.div ((acc_apply m c 127 tLast.isLt).trans ?_) rfl
  rw [leftFold_eq_sum, Finset.sum_range (tile m c), sum_rows_by_tile]
  exact Finset.sum_congr rfl fun t _ => tile_eq m c t

end Total

end Cert.KernelIdeal.Body

end
-- ==== Proof.RefValue.lean ====
/-
  The reference's result at the ideal instance, as one quotient of one sum.

  The host program selects, at every (row, class) pair, the target class's `max(0, 0.9 − x)²` or the other classes'
  `0.5 · (x − 0.1)²` — the one-hot mask compares the row's target, broadcast along the classes, with the class counter
  broadcast along the rows —, sums all 262144 × 100 of them from the initial value `0`, and divides by 262144. Read one
  operation at a time (the generated read-at-an-index lemmas), its scalar is `(∑ R < 262144, ∑ c < 100, term(R, c)) / 262144`.
-/
import proofs.«141539_j22187801051754_1_alg».proof.Proof.Gen.ReferenceIdeal.Read
import proofs.«141539_j22187801051754_1_alg».proof.Proof.SumLaws
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.SumLaws
open Idealize.ShloMosaic Idealize.ShloMosaic.TcCoe Idealize.ShloMosaic.ValueIdx Idealize.SL.Sem

/-- The selected term at `(R, cc)` is the margin term of the input there, row `R`'s target and the class `cc`. -/
theorem selected_apply (x0 : (⟨S262144x100, .f32⟩ : BufTy).Contents (Elt Ideal)) (x1 : (⟨S262144, .i32⟩ : BufTy).Contents (Elt Ideal))
    (R : Fin 262144) (cc : Fin 100) :
    val_main_v16 (F := Ideal) x0 x1 (ix2 R cc) = marginTerm (x0 (ix2 R cc)) (x1 (ix1 R)) (BitVec.ofNat 32 cc.val) := by
  have e1 : idx_main_v0 (idx_main_v3 (ix2 R cc)) = ix1 R := funext fun a => by match a with | ⟨0, _⟩ => rfl
  rw [val_main_v16_apply, val_main_v5_apply, val_main_v3_apply, val_main_v0_apply, val_main_v4_apply, val_main_v2_apply,
    val_main_v1_apply, val_main_v10_apply, val_main_v9_apply, val_main_v8_apply, val_main_cst_0_apply, val_main_v7_apply,
    val_main_v6_apply, val_main_cst_apply, val_main_v15_apply, val_main_v14_apply, val_main_cst_2_apply, val_main_v13_apply,
    val_main_v12_apply, val_main_v11_apply, val_main_cst_1_apply, e1]
  rfl

/-- The reference's scalar. -/
theorem result_apply (x0 : (⟨S262144x100, .f32⟩ : BufTy).Contents (Elt Ideal)) (x1 : (⟨S262144, .i32⟩ : BufTy).Contents (Elt Ideal))
    (i : S_.Idx) :
    val_main_v18 (F := Ideal) x0 x1 i
      = Ideal.div (∑ R : Fin 262144, ∑ cc : Fin 100, marginTerm (x0 (ix2 R cc)) (x1 (ix1 R)) (BitVec.ofNat 32 cc.val))
          (Ideal.ofBits .f32 0x48800000#32) := by
  rw [val_main_v18_apply, val_main_v17_apply, val_main_cst_3_apply, val_main_cst_4_apply, sum_idx2]
  simp only [selected_apply]
  show Ideal.div (Ideal.ofBits .f32 0x00000000#32 + _) _ = _
  rw [Ideal.ofBits_zero_f32, zero_add]
  rfl

end Cert.ReferenceIdeal.RefValue

end
-- ==== Proof.lean ====
/-
  The margin loss, `(∑ over rows R and classes c of  [target R = c] · max(0, 0.9 − x)²  +  [target R ≠ c] · 0.5 · (x − 0.1)²) / 262144`
  of probabilities `x : f32[262144, 100]` and targets `i32[262144]`, computed two ways.

  The kernel walks the rows in 128 tiles of 2048: each grid point sums its tile (along the classes, then along the
  tile's rows), the first point starts a 1×1 accumulator with its tile's sum, every later point adds its own onto it,
  and the last point divides the total by 262144; the 1×1 block is written back after the last point and reshaped to
  the scalar. The reference masks, sums all 26,214,400 terms at once from zero, and divides by 262144.

  Over the extended reals the two are the same number: the same term at every (row, class) pair — every literal is
  the same f32 word on both sides, so none is evaluated —, and a sum taken tile by tile, the tiles' sums added in
  point order from the left, is the sum over all pairs, because `+` on the extended reals is commutative and
  associative (no finiteness of the inputs is used). The division by 262144 is the same operation on both sides.

  The frames: the kernel's body is run symbolically in each of its three control cases (first point, a middle
  point, last point) at any float instance, which gives the body obligation at every grid point and, by the library's
  launch theorem for a region followed by host operations, the run of both the word-level and the idealized kernel;
  the reference's frame is its run with the result dropped. The ideal pass rewrote nothing, so `preserves` is `True`.
-/
import proofs.«141539_j22187801051754_1_alg».proof.Defs
import proofs.«141539_j22187801051754_1_alg».proof.Proof.Gen.Kernel
import proofs.«141539_j22187801051754_1_alg».proof.Proof.Gen.KernelIdeal
import proofs.«141539_j22187801051754_1_alg».proof.Proof.Gen.ReferenceIdeal
import proofs.«141539_j22187801051754_1_alg».proof.Proof.Gen.ReferenceIdeal.Run
import proofs.«141539_j22187801051754_1_alg».proof.Proof.Gen.ReferenceIdeal.Read
import proofs.«141539_j22187801051754_1_alg».proof.Proof.Gen.Pre_finite_inputs
import proofs.«141539_j22187801051754_1_alg».proof.Proof.BitsFrame
import proofs.«141539_j22187801051754_1_alg».proof.Proof.IdealSum
import proofs.«141539_j22187801051754_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Body.frame m ρ

theorem frame_kernelIdeal : Cert.frame_KernelIdeal := fun m ρ _ => Cert.KernelIdeal.Body.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the scalar `(∑ R, ∑ c, term(R, c)) / 262144` of arguments that agree. -/
theorem algebraic : Cert.algebraic_KernelIdeal_ReferenceIdeal := by
  intro m ρ m' ρ' _ hagree
  refine ⟨fun c => shapeCast Cert.KernelIdeal.S_ (Cert.KernelIdeal.Body.result m c) Cert.KernelIdeal.Facts₀.shapeCasts_S1x1_S_,
    Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq]
  funext i
  rw [Cert.ReferenceIdeal.RefValue.result_apply, (hagree c).1, (hagree c).2]
  exact (Cert.KernelIdeal.Body.scalar_apply m c i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
